-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S5000x128 : Shape := ⟨2, ![5000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 116
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x64, .f32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S100000, .f32⟩
  | .hbm, ⟨68, _⟩ => ⟨S1600000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000, .f32⟩
  | .hbm, ⟨92, _⟩ => ⟨S1600000, .f32⟩
  | .hbm, ⟨93, _⟩ => ⟨S_, .i32⟩
  | .hbm, ⟨94, _⟩ => ⟨S1600000, .i32⟩
  | .hbm, ⟨95, _⟩ => ⟨S1600000, .i1⟩
  | .hbm, ⟨96, _⟩ => ⟨S_, .i32⟩
  | .hbm, ⟨97, _⟩ => ⟨S1600000, .i32⟩
  | .hbm, ⟨98, _⟩ => ⟨S1600000, .i32⟩
  | .hbm, ⟨99, _⟩ => ⟨S1600000, .i32⟩
  | .hbm, ⟨100, _⟩ => ⟨S1600000x1, .i32⟩
  | .hbm, ⟨101, _⟩ => ⟨S1600000x64, .f32⟩
  | .hbm, ⟨102, _⟩ => ⟨S1600000x1, .f32⟩
  | .hbm, ⟨103, _⟩ => ⟨S1600000x64, .f32⟩
  | .hbm, ⟨104, _⟩ => ⟨S1600000x64, .f32⟩
  | .hbm, ⟨105, _⟩ => ⟨S_, .f32⟩
  | .hbm, ⟨106, _⟩ => ⟨S100000x64, .f32⟩
  | .hbm, ⟨107, _⟩ => ⟨S1600000x1, .i32⟩
  | .hbm, ⟨108, _⟩ => ⟨S100000x64, .f32⟩
  | .hbm, ⟨109, _⟩ => ⟨S100000, .f32⟩
  | .hbm, ⟨110, _⟩ => ⟨S100000x1, .f32⟩
  | .hbm, ⟨111, _⟩ => ⟨S100000x64, .f32⟩
  | .hbm, ⟨112, _⟩ => ⟨S100000x64, .f32⟩
  | .hbm, ⟨113, _⟩ => ⟨S100000x64, .f32⟩
  | .hbm, ⟨114, _⟩ => ⟨S1x64, .f32⟩
  | .hbm, ⟨115, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_11 : Ref sig .tc := ⟨.hbm, 74, rfl⟩
abbrev main_v55 : Ref sig .tc := ⟨.hbm, 75, rfl⟩
abbrev main_v56 : Ref sig .tc := ⟨.hbm, 76, rfl⟩
abbrev main_c_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_13 : Ref sig .tc := ⟨.hbm, 83, rfl⟩
abbrev main_v62 : Ref sig .tc := ⟨.hbm, 84, rfl⟩
abbrev main_v63 : Ref sig .tc := ⟨.hbm, 85, rfl⟩
abbrev main_c_14 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_15 : Ref sig .tc := ⟨.hbm, 93, rfl⟩
abbrev main_v70 : Ref sig .tc := ⟨.hbm, 94, rfl⟩
abbrev main_v71 : Ref sig .tc := ⟨.hbm, 95, rfl⟩
abbrev main_c_16 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_17 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S5000x128_S128x128_S5000x128_1_0_0_1_n_n_wf : DotDims.WF S5000x128 S128x128 S5000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v87) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v88) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v89) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 121
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x64, .f32⟩
  | .hbm, ⟨68, _⟩ => ⟨S_, .f32⟩
  | .hbm, ⟨69, _⟩ => ⟨S1600000, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000, .f32⟩
  | .hbm, ⟨96, _⟩ => ⟨S1600000, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x64, .f32⟩
  | .hbm, ⟨106, _⟩ => ⟨S1600000x1, .f32⟩
  | .hbm, ⟨107, _⟩ => ⟨S1600000x64, .f32⟩
  | .hbm, ⟨108, _⟩ => ⟨S1600000x64, .f32⟩
  | .hbm, ⟨109, _⟩ => ⟨S_, .f32⟩
  | .hbm, ⟨110, _⟩ => ⟨S100000x64, .f32⟩
  | .hbm, ⟨111, _⟩ => ⟨S1600000x1, .i32⟩
  | .hbm, ⟨112, _⟩ => ⟨S100000x64, .f32⟩
  | .hbm, ⟨113, _⟩ => ⟨S100000, .f32⟩
  | .hbm, ⟨114, _⟩ => ⟨S100000x1, .f32⟩
  | .hbm, ⟨115, _⟩ => ⟨S100000x64, .f32⟩
  | .hbm, ⟨116, _⟩ => ⟨S100000x64, .f32⟩
  | .hbm, ⟨117, _⟩ => ⟨S100000x64, .f32⟩
  | .hbm, ⟨118, _⟩ => ⟨S1x64, .f32⟩
  | .hbm, ⟨119, _⟩ => ⟨S100000x64, .f32⟩
  | .hbm, ⟨120, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Transform1.lean ====
/-
  The first feature transform, `x @ W1`, as the tiled kernel computes it.

  The node axis (100000 rows) is cut into 20 blocks of 5000 rows; grid point `t` loads rows `5000 t … 5000 t + 4999` of `x`
  and the whole of `W1`, multiplies them into a zero accumulator and writes the product to the same rows of the result.
  Over the extended reals a change of float format is the identity, so entry `(p, q)` of the block's product is
  `∑ k, x (5000 t + p, k) * W1 (k, q)`: entry `(5000 t + p, q)` of the whole product `x @ W1`, which is also what a
  `dot_general` contracting axis 1 with axis 0 is at that index. The 20 blocks tile the result, so after the last point
  the result array IS that `dot_general` of the two arrays as the call found them.
-/
import proofs.«161230_j24318104830702_1_alg».proof.Proof.Gen.KernelIdeal.Frame
import proofs.«161230_j24318104830702_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Transform1

open Cert.KernelIdeal Cert.KernelIdeal.Gen

/-! ## A product of a [n, 128] array with a [128, 128] array at an index -/

/-- Row `r` of the left factor at contraction coordinate `k`. -/
abbrev atRow {n : Nat} (r : Fin n) (k : Fin 128) : (⟨2, ![n, 128]⟩ : Shape).Idx := fun a => match a with
  | ⟨0, _⟩ => ⟨r.val, r.isLt⟩
  | ⟨1, _⟩ => ⟨k.val, k.isLt⟩

/-- Column `q` of the right factor at contraction coordinate `k`. -/
abbrev atCol (k : Fin 128) (q : Fin 128) : (⟨2, ![128, 128]⟩ : Shape).Idx := fun a => match a with
  | ⟨0, _⟩ => ⟨k.val, k.isLt⟩
  | ⟨1, _⟩ => ⟨q.val, q.isLt⟩

/-! ### The whole product: a `dot_general` of [100000, 128] with [128, 128] -/

theorem whole_lhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem whole_lhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem whole_rhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem whole_rhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The whole product `X @ W` as the host's `dot_general` states it. -/
abbrev product (X : Vec Ideal Cert.ReferenceIdeal.S100000x128 .f32) (W : Vec Ideal Cert.ReferenceIdeal.S128x128 .f32) :
    Vec Ideal Cert.ReferenceIdeal.S100000x128 .f32 :=
  Host.dotGeneral (F := Ideal) (φ₁ := .f32) (φ₂ := .f32) Cert.ReferenceIdeal.dot_S100000x128_S128x128_S100000x128_1_0_0_1_n_n none X W

/-- Entry `i` of the whole product is the sum over the contraction axis. -/
theorem product_apply (X : Vec Ideal Cert.ReferenceIdeal.S100000x128 .f32) (W : Vec Ideal Cert.ReferenceIdeal.S128x128 .f32)
    (i : Cert.ReferenceIdeal.S100000x128.Idx) :
    product X W i = ∑ k : Fin 128, X (atRow (i 0) k) * W (atCol k (i 1)) := by
  unfold product
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = atRow (i 0) k := funext fun a => Fin.ext (by
    match a with
    | ⟨0, _⟩ => exact whole_lhs_0 _ _
    | ⟨1, _⟩ => exact (whole_lhs_1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = atCol k (i 1) := funext fun a => Fin.ext (by
    match a with
    | ⟨0, _⟩ => exact (whole_rhs_0 _ _).trans hk
    | ⟨1, _⟩ => exact whole_rhs_1 _ _)
  rw [el, er]
  rfl

/-! ### One block's product: the body's matmul of [5000, 128] with [128, 128] into zero -/

theorem block_lhs_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem block_lhs_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem block_rhs_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem block_rhs_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `j` of what the body stores: the block's rows against the weight's columns, the two roundings to bf16 the
    identity over the extended reals and the accumulator zero. -/
theorem payload_apply (x : Vec Ideal S5000x128 .f32) (w : Vec Ideal S128x128 .f32) (j : S5000x128.Idx) :
    k0_pay1 (F := Ideal) x w j = ∑ k : Fin 128, x (atRow (j 0) k) * w (atCol k (j 1)) := by
  unfold k0_pay1
  show FloatOps.matmul dot_S5000x128_S128x128_S5000x128_1_0_0_1_n_n none (truncf (F := Ideal) .bf16 x bitsLt_bf16_f32) (truncf (F := Ideal) .bf16 w bitsLt_bf16_f32) (constant (F := Ideal) S5000x128 .f32 0x00000000#32) j = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = atRow (j 0) k := funext fun a => Fin.ext (by
    match a with
    | ⟨0, _⟩ => exact block_lhs_0 _ _
    | ⟨1, _⟩ => exact (block_lhs_1 _ _).trans hk)
  have er : dot_S5000x128_S128x128_S5000x128_1_0_0_1_n_n.rhsIdx j ((ValueIdx.contrEquiv1 dot_S5000x128_S128x128_S5000x128_1_0_0_1_n_n 128 rfl rfl).symm k) = atCol k (j 1) := funext fun a => Fin.ext (by
    match a with
    | ⟨0, _⟩ => exact (block_rhs_0 _ _).trans hk
    | ⟨1, _⟩ => exact block_rhs_1 _ _)
  rw [el, er]
  rfl

/-! ## The blocks of the three windows -/

variable (V : (c : Dev nD) → (b : Ref sig .tc) → Buf (Elt Ideal) ((c : Thread nD τ).loc b))

theorem origin : (![0, 0] : Fin 2 → Nat) = fun _ => 0 := funext fun a => by fin_cases a <;> rfl

/-- Where the three windows' blocks sit at point `t`: the row blocks of `x` and of the result move together, one block a
    point, in column block 0; the weight is always its one block. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 19
    ∧ win0_2.index t (1 : Fin 2) = 0 :=
  (by decide +kernel : ∀ t : Fin grid0.N, _)

/-- Every row block of the result is some point's. -/
theorem block_onto : ∀ q0 : Fin 20, ∃ t : Fin cfg0.N, win0_2.index t = ![q0.val, 0] :=
  (by decide +kernel : ∀ q0 : Fin 20, ∃ t : Fin grid0.N, win0_2.index t = ![q0.val, 0])

/-- The block of `x` at point `t` is rows `5000 · (block index) + …` of the array as the call finds it. -/
theorem rows_apply (c : Dev nD) (t : Fin cfg0.N) (y : S5000x128.Idx) (i : S100000x128.Idx)
    (h0 : (i 0).val = win0_2.index t (0 : Fin 2) * 5000 + (y 0).val) (h1 : (i 1).val = (y 1).val) :
    (iblk0 V c 0 t : Vec Ideal S5000x128 .f32) y = (V c main_arg0 : S100000x128.Idx → EReal) i := by
  obtain ⟨e0, e1, -, -, -, -⟩ := block_indices t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The block of the weight at every point is the whole weight. -/
theorem weight_apply (c : Dev nD) (t : Fin cfg0.N) (y : S128x128.Idx) :
    (iblk0 V c 1 t : Vec Ideal S128x128 .f32) y = (V c main_arg2 : S128x128.Idx → EReal) y := by
  obtain ⟨-, -, e2, e3, -, -⟩ := block_indices t
  unfold iblk0
  rw [View.read_apply]
  show V c main_arg2 _ = V c main_arg2 _
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-! ## What a point writes back, and the array after the last point -/

/-- WHAT POINT `t` WRITES BACK is block `t` of the whole product of the arrays as the call finds them. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  funext j
  show k0_pay1 (F := Ideal) (iblk0 V c 0 t) (iblk0 V c 1 t) j = product (V c main_arg0) (V c main_arg2) (((cfg0.win 2).blk t).view.emb j)
  refine (payload_apply _ _ j).trans ((Finset.sum_congr rfl fun k _ => ?_).trans (product_apply _ _ _).symm)
  obtain ⟨-, -, -, -, -, e5⟩ := block_indices t
  have hx := rows_apply V c t (atRow (j 0) k) (atRow ((((cfg0.win 2).blk t).view.emb j) 0) k)
    (show win0_2.index t (0 : Fin 2) * 5000 + 1 * (j 0).val = win0_2.index t (0 : Fin 2) * 5000 + (j 0).val by omega) rfl
  have hw := weight_apply V c t (atCol k (j 1))
  have hcol : (atCol k (j 1) : S128x128.Idx) = atCol k ((((cfg0.win 2).blk t).view.emb j) 1) := by
    funext a
    apply Fin.ext
    match a with
    | ⟨0, _⟩ => rfl
    | ⟨1, _⟩ => show (j 1).val = win0_2.index t (1 : Fin 2) * 128 + 1 * (j 1).val; rw [e5]; omega
  rw [hx, hw, hcol]

/-- An index of the result is in point `t`'s block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- Every index of the result lies in the block of the point that owns its row: row `r` is in row block `r / 5000`. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE RESULT ARRAY after the call: the whole product of the two arrays as the call finds them. -/
theorem final (c : Dev nD) : (dat0 V c).arrAt 2 cfg0.N = product (V c main_arg0) (V c main_arg2) :=
  (dat0 V c).arrAt_eq_of_cover 2 (product (V c main_arg0) (V c main_arg2)) (fun t _ => flushed_eq V c t) covered

end Cert.KernelIdeal.Transform1

end
-- ==== Proof.Transform2.lean ====
/-
  The second feature transform, `h @ W2`, as the tiled kernel computes it.

  The node axis (100000 rows) is cut into 20 blocks of 5000 rows; grid point `t` loads rows `5000 t … 5000 t + 4999` of the
  hidden features `h` and the whole of `W2`, multiplies them into a zero accumulator and writes the product to the same
  rows of the [100000, 64] result. Over the extended reals a change of float format is the identity, so entry `(p, q)`
  of the block's product is `∑ k, h (5000 t + p, k) * W2 (k, q)`: entry `(5000 t + p, q)` of the whole product, which is what
  a `dot_general` contracting axis 1 with axis 0 is at that index. The 20 blocks tile the result, so after the last
  point the result array IS that `dot_general` of the two arrays as the call found them.
-/
import proofs.«161230_j24318104830702_1_alg».proof.Proof.Gen.KernelIdeal.Frame
import proofs.«161230_j24318104830702_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Transform2

open Cert.KernelIdeal Cert.KernelIdeal.Gen

/-! ## A product of a [n, 128] array with a [128, 64] array at an index -/

/-- Row `r` of the left factor at contraction coordinate `k`. -/
abbrev atRow {n : Nat} (r : Fin n) (k : Fin 128) : (⟨2, ![n, 128]⟩ : Shape).Idx := fun a => match a with
  | ⟨0, _⟩ => ⟨r.val, r.isLt⟩
  | ⟨1, _⟩ => ⟨k.val, k.isLt⟩

/-- Column `q` of the right factor at contraction coordinate `k`. -/
abbrev atCol (k : Fin 128) (q : Fin 64) : (⟨2, ![128, 64]⟩ : Shape).Idx := fun a => match a with
  | ⟨0, _⟩ => ⟨k.val, k.isLt⟩
  | ⟨1, _⟩ => ⟨q.val, q.isLt⟩

/-! ### The whole product: a `dot_general` of [100000, 128] with [128, 64] -/

theorem whole_lhs_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x64_S100000x64_1_0_0_1_n_n.lhsBatch by decide), dif_pos (show (0 : Fin Cert.ReferenceIdeal.S100000x128.rank) ∈ Cert.ReferenceIdeal.dot_S100000x128_S128x64_S100000x64_1_0_0_1_n_n.lhsNonContracting by decide)]
  rfl
theorem whole_lhs_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
theorem whole_rhs_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
theorem whole_rhs_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin Cert.ReferenceIdeal.S128x64.rank) ∈ Cert.ReferenceIdeal.dot_S100000x128_S128x64_S100000x64_1_0_0_1_n_n.rhsBatch by decide), dif_pos (show (1 : Fin Cert.ReferenceIdeal.S128x64.rank) ∈ Cert.ReferenceIdeal.dot_S100000x128_S128x64_S100000x64_1_0_0_1_n_n.rhsNonContracting by decide)]
  rfl

/-- The whole product `X @ W` as the host's `dot_general` states it. -/
abbrev product (X : Vec Ideal Cert.ReferenceIdeal.S100000x128 .f32) (W : Vec Ideal Cert.ReferenceIdeal.S128x64 .f32) :
    Vec Ideal Cert.ReferenceIdeal.S100000x64 .f32 :=
  Host.dotGeneral (F := Ideal) (φ₁ := .f32) (φ₂ := .f32) Cert.ReferenceIdeal.dot_S100000x128_S128x64_S100000x64_1_0_0_1_n_n none X W

/-- Entry `i` of the whole product is the sum over the contraction axis. -/
theorem product_apply (X : Vec Ideal Cert.ReferenceIdeal.S100000x128 .f32) (W : Vec Ideal Cert.ReferenceIdeal.S128x64 .f32)
    (i : Cert.ReferenceIdeal.S100000x64.Idx) :
    product X W i = ∑ k : Fin 128, X (atRow (i 0) k) * W (atCol k (i 1)) := by
  unfold product
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((ValueIdx.contrEquiv1 Cert.ReferenceIdeal.dot_S100000x128_S128x64_S100000x64_1_0_0_1_n_n 128 rfl rfl).symm k) = atRow (i 0) k := funext fun a => Fin.ext (by
    match a with
    | ⟨0, _⟩ => exact whole_lhs_0 _ _
    | ⟨1, _⟩ => exact (whole_lhs_1 _ _).trans hk)
  have er : Cert.ReferenceIdeal.dot_S100000x128_S128x64_S100000x64_1_0_0_1_n_n.rhsIdx i ((ValueIdx.contrEquiv1 Cert.ReferenceIdeal.dot_S100000x128_S128x64_S100000x64_1_0_0_1_n_n 128 rfl rfl).symm k) = atCol k (i 1) := funext fun a => Fin.ext (by
    match a with
    | ⟨0, _⟩ => exact (whole_rhs_0 _ _).trans hk
    | ⟨1, _⟩ => exact whole_rhs_1 _ _)
  rw [el, er]
  rfl

/-! ### One block's product: the body's matmul of [5000, 128] with [128, 64] into zero -/

theorem block_lhs_0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem block_lhs_1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem block_rhs_0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem block_rhs_1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry `j` of what the body stores: the block's rows against the weight's columns — the cast of the loaded block to
    its own shape and the two roundings to bf16 the identity over the extended reals, the accumulator zero. -/
theorem payload_apply (x : Vec Ideal S5000x128 .f32) (w : Vec Ideal S128x64 .f32) (j : S5000x64.Idx) :
    k2_pay1 (F := Ideal) x w j = ∑ k : Fin 128, x (atRow (j 0) k) * w (atCol k (j 1)) := by
  unfold k2_pay1
  simp only [shapeCast_self]
  show FloatOps.matmul dot_S5000x128_S128x64_S5000x64_1_0_0_1_n_n none (truncf (F := Ideal) .bf16 x bitsLt_bf16_f32) (truncf (F := Ideal) .bf16 w bitsLt_bf16_f32) (constant (F := Ideal) S5000x64 .f32 0x00000000#32) j = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = atRow (j 0) k := funext fun a => Fin.ext (by
    match a with
    | ⟨0, _⟩ => exact block_lhs_0 _ _
    | ⟨1, _⟩ => exact (block_lhs_1 _ _).trans hk)
  have er : dot_S5000x128_S128x64_S5000x64_1_0_0_1_n_n.rhsIdx j ((ValueIdx.contrEquiv1 dot_S5000x128_S128x64_S5000x64_1_0_0_1_n_n 128 rfl rfl).symm k) = atCol k (j 1) := funext fun a => Fin.ext (by
    match a with
    | ⟨0, _⟩ => exact (block_rhs_0 _ _).trans hk
    | ⟨1, _⟩ => exact block_rhs_1 _ _)
  rw [el, er]
  rfl

/-! ## The blocks of the three windows -/

variable (V : (c : Dev nD) → (b : Ref sig .tc) → Buf (Elt Ideal) ((c : Thread nD τ).loc b))

theorem origin : (![0, 0] : Fin 2 → Nat) = fun _ => 0 := funext fun a => by fin_cases a <;> rfl

/-- Where the three windows' blocks sit at point `t`: the row blocks of `h` and of the result move together, one block a
    point, in column block 0; the weight is always its one block. -/
theorem block_indices : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 19
    ∧ win2_2.index t (1 : Fin 2) = 0 :=
  (by decide +kernel : ∀ t : Fin grid2.N, _)

/-- Every row block of the result is some point's. -/
theorem block_onto : ∀ q0 : Fin 20, ∃ t : Fin cfg2.N, win2_2.index t = ![q0.val, 0] :=
  (by decide +kernel : ∀ q0 : Fin 20, ∃ t : Fin grid2.N, win2_2.index t = ![q0.val, 0])

/-- The block of `h` at point `t` is rows `5000 · (block index) + …` of the array as the call finds it. -/
theorem rows_apply (c : Dev nD) (t : Fin cfg2.N) (y : S5000x128.Idx) (i : S100000x128.Idx)
    (h0 : (i 0).val = win2_2.index t (0 : Fin 2) * 5000 + (y 0).val) (h1 : (i 1).val = (y 1).val) :
    (iblk2 V c 0 t : Vec Ideal S5000x128 .f32) y = (V c main_v46 : S100000x128.Idx → EReal) i := by
  obtain ⟨e0, e1, -, -, -, -⟩ := block_indices t
  unfold iblk2
  rw [View.read_apply]
  show V c main_v46 _ = V c main_v46 _
  congr 1
  funext a
  apply Fin.ext
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega

/-- The block of the weight at every point is the whole weight. -/
theorem weight_apply (c : Dev nD) (t : Fin cfg2.N) (y : S128x64.Idx) :
    (iblk2 V c 1 t : Vec Ideal S128x64 .f32) y = (V c main_arg4 : S128x64.Idx → EReal) y := by
  obtain ⟨-, -, e2, e3, -, -⟩ := block_indices t
  unfold iblk2
  rw [View.read_apply]
  show V c main_arg4 _ = V c main_arg4 _
  congr 1
  funext a
  apply Fin.ext
  match a with
  | ⟨0, _⟩ => show win2_1.index t (0 : Fin 2) * 128 + 1 * (y 0).val = (y 0).val; rw [e2]; omega
  | ⟨1, _⟩ => show win2_1.index t (1 : Fin 2) * 64 + 1 * (y 1).val = (y 1).val; rw [e3]; omega

/-! ## What a point writes back, and the array after the last point -/

/-- WHAT POINT `t` WRITES BACK is block `t` of the whole product of the arrays as the call finds them. -/
theorem flushed_eq (c : Dev nD) (t : Fin cfg2.N) :
    (dat2 V c).flushed 2 t = ((cfg2.win 2).blk t).view.read (Elt Ideal) (product (V c main_v46) (V c main_arg4)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x64) origin]
  funext j
  show k2_pay1 (F := Ideal) (iblk2 V c 0 t) (iblk2 V c 1 t) j = product (V c main_v46) (V c main_arg4) (((cfg2.win 2).blk t).view.emb j)
  refine (payload_apply _ _ j).trans ((Finset.sum_congr rfl fun k _ => ?_).trans (product_apply _ _ _).symm)
  obtain ⟨-, -, -, -, -, e5⟩ := block_indices t
  have hx := rows_apply V c t (atRow (j 0) k) (atRow ((((cfg2.win 2).blk t).view.emb j) 0) k)
    (show win2_2.index t (0 : Fin 2) * 5000 + 1 * (j 0).val = win2_2.index t (0 : Fin 2) * 5000 + (j 0).val by omega) rfl
  have hw := weight_apply V c t (atCol k (j 1))
  have hcol : (atCol k (j 1) : S128x64.Idx) = atCol k ((((cfg2.win 2).blk t).view.emb j) 1) := by
    funext a
    apply Fin.ext
    match a with
    | ⟨0, _⟩ => rfl
    | ⟨1, _⟩ => show (j 1).val = win2_2.index t (1 : Fin 2) * 64 + 1 * (j 1).val; rw [e5]; omega
  rw [hx, hw, hcol]

/-- An index of the result is in point `t`'s block iff each coordinate is in the block's range on its axis. -/
theorem mem_block (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v47).slice (win2_2.rect t)).set ↔ _
  rw [View.set_slice_whole, Rect.mem_set_unit]
  exact Iff.rfl

/-- Every index of the result lies in the block of the point that owns its row: row `r` is in row block `r / 5000`. -/
theorem covered (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := block_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- THE RESULT ARRAY after the call: the whole product of the two arrays as the call finds them. -/
theorem final (c : Dev nD) : (dat2 V c).arrAt 2 cfg2.N = product (V c main_v46) (V c main_arg4) :=
  (dat2 V c).arrAt_eq_of_cover 2 (product (V c main_v46) (V c main_arg4)) (fun t _ => flushed_eq V c t) covered

end Cert.KernelIdeal.Transform2

end
-- ==== Proof.Shift1.lean ====
/-
  The first bias stage: the bias row added to every row of the aggregated features, then clamped below at zero.

  The node axis is cut into 20 blocks of 5000 rows; grid point `t` loads rows `5000 t … 5000 t + 4999` of the aggregate
  and the one-row bias, and stores `max (a + b, 0)` to the same rows of the result: entry `(p, q)` of the stored block is
  `max (a (5000 t + p, q) + b (0, q), 0)`. The 20 blocks tile the result, so after the last point the result array is
  that function of the two arrays as the call found them, at every index. Nothing here depends on what a float is.
-/
import proofs.«161230_j24318104830702_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Shift1

open Cert.KernelIdeal Cert.KernelIdeal.Gen

variable {F : FTy → Type} [FloatOps F]

/-- Column `q` of the one-row bias. -/
abbrev biasAt (q : Fin 128) : S1x128.Idx := fun a => match a with
  | ⟨0, _⟩ => ⟨0, Nat.one_pos⟩
  | ⟨1, _⟩ => ⟨q.val, q.isLt⟩

/-- The stage as one function of the aggregate and the one-row bias, index by index. -/
def shifted (agg : S100000x128.Idx → Elt F .f32) (b : S1x128.Idx → Elt F .f32) : S100000x128.Idx → Elt F .f32 :=
  fun i => FloatOps.maximumf (FloatOps.addf (agg i) (b (biasAt (i 1)))) (Scalar.ofBits .f32 0x00000000#32)

/-- Entry `j` of what the body stores: the block's entry plus the bias of its column, clamped below at zero. -/
theorem payload_apply (x : Vec F S5000x128 .f32) (b : Vec F S1x128 .f32) (j : S5000x128.Idx) :
    k1_pay1 x b j = FloatOps.maximumf (FloatOps.addf (x j) (b (biasAt (j 1)))) (Scalar.ofBits .f32 0x00000000#32) := by
  unfold k1_pay1
  simp only [shapeCast_self]
  show FloatOps.maximumf (FloatOps.addf (x j) (broadcastTo S5000x128 b broadcasts_S1x128_S5000x128 j)) (Scalar.ofBits .f32 0x00000000#32) = _
  rw [broadcastTo_apply b broadcasts_S1x128_S5000x128 j (biasAt (j 1)) (fun a => match a with
    | ⟨0, _⟩ => by show (0 : Nat) = if (1 : Nat) = 1 then 0 else _; rw [if_pos rfl]
    | ⟨1, _⟩ => by show (j 1).val = if (128 : Nat) = 1 then 0 else _; rw [if_neg (by decide)]; rfl)]

/-! ## The blocks of the three windows -/

variable (V : (c : Dev nD) → (b : Ref sig .tc) → Buf (Elt F) ((c : Thread nD τ).loc b))

theorem origin : (![0, 0] : Fin 2 → Nat) = fun _ => 0 := funext fun a => by fin_cases a <;> rfl

/-- Where the three windows' blocks sit at point `t`: the row blocks of the aggregate and of the result move together,
    one block a point, in column block 0; the bias is always its one block. -/
theorem block_indices : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) ≤ 19
    ∧ win1_2.index t (1 : Fin 2) = 0 :=
  (by decide +kernel : ∀ t : Fin grid1.N, _)

/-- Every row block of the result is some point's. -/
theorem block_onto : ∀ q0 : Fin 20, ∃ t : Fin cfg1.N, win1_2.index t = ![q0.val, 0] :=
  (by decide +kernel : ∀ q0 : Fin 20, ∃ t : Fin grid1.N, win1_2.index t = ![q0.val, 0])

/-- The block of the aggregate at point `t` is rows `5000 · (block index) + …` of the array as the call finds it. -/
theorem rows_apply (c : Dev nD) (t : Fin cfg1.N) (y : S5000x128.Idx) (i : S100000x128.Idx)
    (h0 : (i 0).val = win1_2.index t (0 : Fin 2) * 5000 + (y 0).val) (h1 : (i 1).val = (y 1).val) :
    (iblk1 V c 0 t : Vec F S5000x128 .f32) y = (V c main_v44 : S100000x128.Idx → Elt F .f32) i := by
  obtain ⟨e0, e1, -, -, -, -⟩ := block_indices t
  unfold iblk1
  rw [View.read_apply]
  show V c main_v44 _ = V c main_v44 _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The block of the bias at every point is the whole one-row bias. -/
theorem bias_apply (c : Dev nD) (t : Fin cfg1.N) (y : S1x128.Idx) :
    (iblk1 V c 1 t : Vec F S1x128 .f32) y = (V c main_v45 : S1x128.Idx → Elt F .f32) y := by
  obtain ⟨-, -, e2, e3, -, -⟩ := block_indices t
  unfold iblk1
  rw [View.read_apply]
  show V c main_v45 _ = V c main_v45 _
  congr 1
  funext a
  apply Fin.ext
  match a with
  | ⟨0, _⟩ => show win1_1.index t (0 : Fin 2) * 1 + 1 * (y 0).val = (y 0).val; rw [e2]; omega
  | ⟨1, _⟩ => show win1_1.index t (1 : Fin 2) * 128 + 1 * (y 1).val = (y 1).val; rw [e3]; omega

/-! ## What a point writes back, and the array after the last point -/

/-- WHAT POINT `t` WRITES BACK is block `t` of the stage's function of the arrays as the call finds them. -/
theorem flushed_eq (c : Dev nD) (t : Fin cfg1.N) :
    (dat1 V c).flushed 2 t = ((cfg1.win 2).blk t).view.read (Elt F) (shifted (V c main_v44) (V c main_v45)) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  funext j
  show k1_pay1 (iblk1 V c 0 t) (iblk1 V c 1 t) j = shifted (V c main_v44) (V c main_v45) (((cfg1.win 2).blk t).view.emb j)
  refine (payload_apply _ _ j).trans ?_
  obtain ⟨-, -, -, -, -, e5⟩ := block_indices t
  have hcol : ((((cfg1.win 2).blk t).view.emb j) 1).val = (j 1).val := by
    show win1_2.index t (1 : Fin 2) * 128 + 1 * (j 1).val = (j 1).val; rw [e5]; omega
  have hx := rows_apply V c t j (((cfg1.win 2).blk t).view.emb j)
    (show win1_2.index t (0 : Fin 2) * 5000 + 1 * (j 0).val = win1_2.index t (0 : Fin 2) * 5000 + (j 0).val by omega) hcol
  have hb := bias_apply V c t (biasAt (j 1))
  have hq : (biasAt (j 1) : S1x128.Idx) = biasAt ((((cfg1.win 2).blk t).view.emb j) 1) := by
    funext a
    apply Fin.ext
    match a with
    | ⟨0, _⟩ => rfl
    | ⟨1, _⟩ => exact hcol.symm
  unfold shifted
  rw [hx, hb, hq]

/-- An index of the result is in point `t`'s block iff each coordinate is in the block's range on its axis. -/
theorem mem_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v46).slice (win1_2.rect t)).set ↔ _
  rw [View.set_slice_whole, Rect.mem_set_unit]
  exact Iff.rfl

/-- Every index of the result lies in the block of the point that owns its row: row `r` is in row block `r / 5000`. -/
theorem covered (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := block_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE RESULT ARRAY after the call: the stage's function of the two arrays as the call finds them. -/
theorem final (c : Dev nD) : (dat1 V c).arrAt 2 cfg1.N = shifted (V c main_v44) (V c main_v45) :=
  (dat1 V c).arrAt_eq_of_cover 2 (shifted (V c main_v44) (V c main_v45)) (fun t _ => flushed_eq V c t) covered

end Cert.KernelIdeal.Shift1

end
-- ==== Proof.Shift2.lean ====
/-
  The second bias stage: the bias row added to every row of the aggregated output features (no clamp).

  The node axis is cut into 20 blocks of 5000 rows; grid point `t` loads rows `5000 t … 5000 t + 4999` of the aggregate
  and the one-row bias, and stores `a + b` to the same rows of the result: entry `(p, q)` of the stored block is
  `a (5000 t + p, q) + b (0, q)`. The 20 blocks tile the result, so after the last point the result array is that
  function of the two arrays as the call found them, at every index. Nothing here depends on what a float is.
-/
import proofs.«161230_j24318104830702_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Shift2

open Cert.KernelIdeal Cert.KernelIdeal.Gen

variable {F : FTy → Type} [FloatOps F]

/-- Column `q` of the one-row bias. -/
abbrev biasAt (q : Fin 64) : S1x64.Idx := fun a => match a with
  | ⟨0, _⟩ => ⟨0, Nat.one_pos⟩
  | ⟨1, _⟩ => ⟨q.val, q.isLt⟩

/-- The stage as one function of the aggregate and the one-row bias, index by index. -/
def shifted (agg : S100000x64.Idx → Elt F .f32) (b : S1x64.Idx → Elt F .f32) : S100000x64.Idx → Elt F .f32 :=
  fun i => FloatOps.addf (agg i) (b (biasAt (i 1)))

/-- Entry `j` of what the body stores: the block's entry plus the bias of its column. -/
theorem payload_apply (x : Vec F S5000x64 .f32) (b : Vec F S1x64 .f32) (j : S5000x64.Idx) :
    k3_pay1 x b j = FloatOps.addf (x j) (b (biasAt (j 1))) := by
  unfold k3_pay1
  simp only [shapeCast_self]
  show FloatOps.addf (x j) (broadcastTo S5000x64 b broadcasts_S1x64_S5000x64 j) = _
  rw [broadcastTo_apply b broadcasts_S1x64_S5000x64 j (biasAt (j 1)) (fun a => match a with
    | ⟨0, _⟩ => by show (0 : Nat) = if (1 : Nat) = 1 then 0 else _; rw [if_pos rfl]
    | ⟨1, _⟩ => by show (j 1).val = if (64 : Nat) = 1 then 0 else _; rw [if_neg (by decide)]; rfl)]

/-! ## The blocks of the three windows -/

variable (V : (c : Dev nD) → (b : Ref sig .tc) → Buf (Elt F) ((c : Thread nD τ).loc b))

theorem origin : (![0, 0] : Fin 2 → Nat) = fun _ => 0 := funext fun a => by fin_cases a <;> rfl

/-- Where the three windows' blocks sit at point `t`: the row blocks of the aggregate and of the result move together,
    one block a point, in column block 0; the bias is always its one block. -/
theorem block_indices : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) ≤ 19
    ∧ win3_2.index t (1 : Fin 2) = 0 :=
  (by decide +kernel : ∀ t : Fin grid3.N, _)

/-- Every row block of the result is some point's. -/
theorem block_onto : ∀ q0 : Fin 20, ∃ t : Fin cfg3.N, win3_2.index t = ![q0.val, 0] :=
  (by decide +kernel : ∀ q0 : Fin 20, ∃ t : Fin grid3.N, win3_2.index t = ![q0.val, 0])

/-- The block of the aggregate at point `t` is rows `5000 · (block index) + …` of the array as the call finds it. -/
theorem rows_apply (c : Dev nD) (t : Fin cfg3.N) (y : S5000x64.Idx) (i : S100000x64.Idx)
    (h0 : (i 0).val = win3_2.index t (0 : Fin 2) * 5000 + (y 0).val) (h1 : (i 1).val = (y 1).val) :
    (iblk3 V c 0 t : Vec F S5000x64 .f32) y = (V c main_v87 : S100000x64.Idx → Elt F .f32) i := by
  obtain ⟨e0, e1, -, -, -, -⟩ := block_indices t
  unfold iblk3
  rw [View.read_apply]
  show V c main_v87 _ = V c main_v87 _
  congr 1
  funext a
  apply Fin.ext
  match a with
  | ⟨0, _⟩ => show win3_0.index t (0 : Fin 2) * 5000 + 1 * (y 0).val = (i 0).val; rw [e0, h0]; omega
  | ⟨1, _⟩ => show win3_0.index t (1 : Fin 2) * 64 + 1 * (y 1).val = (i 1).val; rw [e1, h1]; omega

/-- The block of the bias at every point is the whole one-row bias. -/
theorem bias_apply (c : Dev nD) (t : Fin cfg3.N) (y : S1x64.Idx) :
    (iblk3 V c 1 t : Vec F S1x64 .f32) y = (V c main_v88 : S1x64.Idx → Elt F .f32) y := by
  obtain ⟨-, -, e2, e3, -, -⟩ := block_indices t
  unfold iblk3
  rw [View.read_apply]
  show V c main_v88 _ = V c main_v88 _
  congr 1
  funext a
  apply Fin.ext
  match a with
  | ⟨0, _⟩ => show win3_1.index t (0 : Fin 2) * 1 + 1 * (y 0).val = (y 0).val; rw [e2]; omega
  | ⟨1, _⟩ => show win3_1.index t (1 : Fin 2) * 64 + 1 * (y 1).val = (y 1).val; rw [e3]; omega

/-! ## What a point writes back, and the array after the last point -/

/-- WHAT POINT `t` WRITES BACK is block `t` of the stage's function of the arrays as the call finds them. -/
theorem flushed_eq (c : Dev nD) (t : Fin cfg3.N) :
    (dat3 V c).flushed 2 t = ((cfg3.win 2).blk t).view.read (Elt F) (shifted (V c main_v87) (V c main_v88)) := by
  show (cfg3.win 2).cut (grid3.coords t) ((dat3 V c).after 2 t) = _
  rw [after3_2]
  unfold out3_2
  rw [View.canon_unit_zero origin]
  simp only [View.ld_unit_zero (S := S5000x64) origin, View.ld_unit_zero (S := S1x64) origin]
  funext j
  show k3_pay1 (iblk3 V c 0 t) (iblk3 V c 1 t) j = shifted (V c main_v87) (V c main_v88) (((cfg3.win 2).blk t).view.emb j)
  refine (payload_apply _ _ j).trans ?_
  obtain ⟨-, -, -, -, -, e5⟩ := block_indices t
  have hcol : ((((cfg3.win 2).blk t).view.emb j) 1).val = (j 1).val := by
    show win3_2.index t (1 : Fin 2) * 64 + 1 * (j 1).val = (j 1).val; rw [e5]; omega
  have hx := rows_apply V c t j (((cfg3.win 2).blk t).view.emb j)
    (show win3_2.index t (0 : Fin 2) * 5000 + 1 * (j 0).val = win3_2.index t (0 : Fin 2) * 5000 + (j 0).val by omega) hcol
  have hb := bias_apply V c t (biasAt (j 1))
  have hq : (biasAt (j 1) : S1x64.Idx) = biasAt ((((cfg3.win 2).blk t).view.emb j) 1) := by
    funext a
    apply Fin.ext
    match a with
    | ⟨0, _⟩ => rfl
    | ⟨1, _⟩ => exact hcol.symm
  unfold shifted
  rw [hx, hb, hq]

/-- An index of the result is in point `t`'s block iff each coordinate is in the block's range on its axis. -/
theorem mem_block (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v89).slice (win3_2.rect t)).set ↔ _
  rw [View.set_slice_whole, Rect.mem_set_unit]
  exact Iff.rfl

/-- Every index of the result lies in the block of the point that owns its row: row `r` is in row block `r / 5000`. -/
theorem covered (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := block_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- THE RESULT ARRAY after the call: the stage's function of the two arrays as the call finds them. -/
theorem final (c : Dev nD) : (dat3 V c).arrAt 2 cfg3.N = shifted (V c main_v87) (V c main_v88) :=
  (dat3 V c).arrAt_eq_of_cover 2 (shifted (V c main_v87) (V c main_v88)) (fun t _ => flushed_eq V c t) covered

end Cert.KernelIdeal.Shift2

end
-- ==== Proof.Stretch.lean ====
/-
  The plain host code between the kernel calls, read against the reference's own stages.

  Between the calls the kernel's program runs the same operations as the reference, on other buffers: it splits
  `edge_index` into sources and destinations, and, once per layer, counts the in-degree of every node, takes
  `rsqrt (deg + 1)`, gathers the transformed features along the sources, scales each edge by the two endpoints'
  coefficients, scatter-adds along the destinations and adds the self-loop term. Each stretch is read here as a function
  of the buffers it starts from: when those hold the reference's stage values, so does every buffer it writes. Nothing
  is evaluated: a gather or a scatter is carried as the same operation on both sides, whatever the indices are.
-/
import proofs.«161230_j24318104830702_1_alg».proof.Proof.Gen.KernelIdeal.Launch
import proofs.«161230_j24318104830702_1_alg».proof.Proof.Gen.ReferenceIdeal.Read
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Stretch

open Cert.KernelIdeal Cert.KernelIdeal.Gen

variable {F : FTy → Type} [FloatOps F]
variable (W : Valuation τ sig (Elt F))

/-- A buffer none of a stretch's operations writes keeps its contents. -/
local macro "kept_by " ops:ident : tactic => `(tactic| (
  refine after_of_forall_not_mem _ _ (List.forall_iff_forall_mem.mp ?_)
  simp only [$ops:ident, List.Forall, nullary_writes, unary_writes, binary_writes, ternary_writes, quaternary_writes,
    reshape_writes, binaryIndexed_writes, Finset.mem_singleton]
  repeat' apply And.intro
  all_goals exact devRef_ne_of_ne (by decide)))

/-! ## Before the first call: sources and destinations -/

/-- The sources: row 0 of `edge_index`. -/
theorem sources : after hostOps0 W (Proc.devRef .tc main_v1) = Cert.ReferenceIdeal.Read.val_main_v1 (F := F) (W (Proc.devRef .tc main_arg1)) := by
  simp only [hostOps0]
  after_results
  rfl

/-- The destinations: row 1 of `edge_index`. -/
theorem destinations : after hostOps0 W (Proc.devRef .tc main_v3) = Cert.ReferenceIdeal.Read.val_main_v3 (F := F) (W (Proc.devRef .tc main_arg1)) := by
  simp only [hostOps0]
  after_results
  rfl

theorem kept0_arg0 : after hostOps0 W (Proc.devRef .tc main_arg0) = W (Proc.devRef .tc main_arg0) := by kept_by hostOps0
theorem kept0_arg2 : after hostOps0 W (Proc.devRef .tc main_arg2) = W (Proc.devRef .tc main_arg2) := by kept_by hostOps0
theorem kept0_arg3 : after hostOps0 W (Proc.devRef .tc main_arg3) = W (Proc.devRef .tc main_arg3) := by kept_by hostOps0
theorem kept0_arg4 : after hostOps0 W (Proc.devRef .tc main_arg4) = W (Proc.devRef .tc main_arg4) := by kept_by hostOps0
theorem kept0_arg5 : after hostOps0 W (Proc.devRef .tc main_arg5) = W (Proc.devRef .tc main_arg5) := by kept_by hostOps0

/-! ## Between the first and the second call: the first layer's aggregation -/

/-- The first layer's aggregate, when the stretch starts from the reference's transformed features, sources and
    destinations. -/
theorem aggregate1 (x0 : (⟨Cert.ReferenceIdeal.S100000x128, .f32⟩ : BufTy).Contents (Elt F)) (x1 : (⟨Cert.ReferenceIdeal.S2x1600000, .i32⟩ : BufTy).Contents (Elt F))
    (x2 : (⟨Cert.ReferenceIdeal.S128x128, .f32⟩ : BufTy).Contents (Elt F))
    (h4 : W (Proc.devRef .tc main_v4) = Cert.ReferenceIdeal.Read.val_main_v4 (F := F) x0 x2)
    (h1 : W (Proc.devRef .tc main_v1) = Cert.ReferenceIdeal.Read.val_main_v1 (F := F) x1)
    (h3 : W (Proc.devRef .tc main_v3) = Cert.ReferenceIdeal.Read.val_main_v3 (F := F) x1) :
    after hostOps1 W (Proc.devRef .tc main_v44) = Cert.ReferenceIdeal.Read.val_main_v44 (F := F) x0 x1 x2 := by
  simp only [hostOps1]
  after_results_simp
  rw [h4, h1, h3]
  rfl

/-- The bias of the first layer as one row. -/
theorem bias1_row : after hostOps1 W (Proc.devRef .tc main_v45) = shapeCast S1x128 (W (Proc.devRef .tc main_arg3)) shapeCasts_S128_S1x128 := by
  simp only [hostOps1]
  after_results_simp
  rfl

theorem kept1_v1 : after hostOps1 W (Proc.devRef .tc main_v1) = W (Proc.devRef .tc main_v1) := by kept_by hostOps1
theorem kept1_v3 : after hostOps1 W (Proc.devRef .tc main_v3) = W (Proc.devRef .tc main_v3) := by kept_by hostOps1
theorem kept1_arg3 : after hostOps1 W (Proc.devRef .tc main_arg3) = W (Proc.devRef .tc main_arg3) := by kept_by hostOps1
theorem kept1_arg4 : after hostOps1 W (Proc.devRef .tc main_arg4) = W (Proc.devRef .tc main_arg4) := by kept_by hostOps1
theorem kept1_arg5 : after hostOps1 W (Proc.devRef .tc main_arg5) = W (Proc.devRef .tc main_arg5) := by kept_by hostOps1

/-! ## Between the third and the fourth call: the second layer's aggregation -/

/-- The second layer's aggregate, when the stretch starts from the reference's transformed hidden features, sources and
    destinations. -/
theorem aggregate2 (x0 : (⟨Cert.ReferenceIdeal.S100000x128, .f32⟩ : BufTy).Contents (Elt F)) (x1 : (⟨Cert.ReferenceIdeal.S2x1600000, .i32⟩ : BufTy).Contents (Elt F))
    (x2 : (⟨Cert.ReferenceIdeal.S128x128, .f32⟩ : BufTy).Contents (Elt F)) (x3 : (⟨Cert.ReferenceIdeal.S128, .f32⟩ : BufTy).Contents (Elt F))
    (x4 : (⟨Cert.ReferenceIdeal.S128x64, .f32⟩ : BufTy).Contents (Elt F))
    (h47 : W (Proc.devRef .tc main_v47) = Cert.ReferenceIdeal.Read.val_main_v49 (F := F) x0 x1 x2 x3 x4)
    (h1 : W (Proc.devRef .tc main_v1) = Cert.ReferenceIdeal.Read.val_main_v1 (F := F) x1)
    (h3 : W (Proc.devRef .tc main_v3) = Cert.ReferenceIdeal.Read.val_main_v3 (F := F) x1) :
    after hostOps3 W (Proc.devRef .tc main_v87) = Cert.ReferenceIdeal.Read.val_main_v89 (F := F) x0 x1 x2 x3 x4 := by
  simp only [hostOps3]
  after_results_simp
  rw [h47, h1, h3]
  rfl

/-- The bias of the second layer as one row. -/
theorem bias2_row : after hostOps3 W (Proc.devRef .tc main_v88) = shapeCast S1x64 (W (Proc.devRef .tc main_arg5)) shapeCasts_S64_S1x64 := by
  simp only [hostOps3]
  after_results_simp
  rfl

theorem kept3_arg5 : after hostOps3 W (Proc.devRef .tc main_arg5) = W (Proc.devRef .tc main_arg5) := by kept_by hostOps3

end Cert.KernelIdeal.Stretch

end
-- ==== Proof.RefStages.lean ====
/-
  The reference's stages at the four places where the kernel's program has a kernel call instead of host operations.

  The reference computes each feature transform by one `dot_general`, and each bias stage by broadcasting the bias to a
  row, then to every row, adding it, and (after the first layer) taking the maximum with zero. Read at an index these
  are the functions the kernel calls' result arrays hold: the whole product, and `max (a + b (0, column), 0)` /
  `a + b (0, column)` with the bias reshaped to one row.
-/
import proofs.«161230_j24318104830702_1_alg».proof.Proof.Gen.ReferenceIdeal.Read
import proofs.«161230_j24318104830702_1_alg».proof.Proof.Transform1
import proofs.«161230_j24318104830702_1_alg».proof.Proof.Transform2
import proofs.«161230_j24318104830702_1_alg».proof.Proof.Shift1
import proofs.«161230_j24318104830702_1_alg».proof.Proof.Shift2

noncomputable section

open Idealize.ShloMosaic Idealize.ShloMosaic.TcCoe Idealize.SL.Sem

namespace Cert.KernelIdeal.RefStages

open Cert.ReferenceIdeal Cert.ReferenceIdeal.Read

variable {F : FTy → Type} [FloatOps F]

/-- The reference's first transformed features are the whole product `x @ W1`. -/
theorem transform1_stage (x0 : (⟨S100000x128, .f32⟩ : BufTy).Contents (Elt Ideal)) (x2 : (⟨S128x128, .f32⟩ : BufTy).Contents (Elt Ideal)) :
    val_main_v4 (F := Ideal) x0 x2 = Cert.KernelIdeal.Transform1.product x0 x2 := rfl

/-- The reference's hidden features — aggregate plus bias, clamped below at zero — are the first bias stage's function
    of the aggregate and of the bias as one row. -/
theorem shift1_stage (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F))
    (h : Cert.KernelIdeal.S128.ShapeCasts Cert.KernelIdeal.S1x128) :
    val_main_v48 (F := F) x0 x1 x2 x3
      = Cert.KernelIdeal.Shift1.shifted (val_main_v44 (F := F) x0 x1 x2) (shapeCast Cert.KernelIdeal.S1x128 x3 h) := by
  funext i
  rw [val_main_v48_apply, val_main_v47_apply, val_main_v46_apply, val_main_v45_apply, val_main_call0_v0_apply, val_main_call0_cst_apply]
  have hb : shapeCast Cert.KernelIdeal.S1x128 x3 h (Cert.KernelIdeal.Shift1.biasAt (i 1)) = x3 (idx_main_v45 (idx_main_v46 i)) := by
    refine (shapeCast_addUnit_apply ![128] x3 h (Cert.KernelIdeal.Shift1.biasAt (i 1))).trans (congrArg x3 (funext fun a => ?_))
    match a with
    | ⟨0, _⟩ => rfl
  unfold Cert.KernelIdeal.Shift1.shifted
  rw [hb]

/-- The reference's second transformed features are the whole product `h @ W2` of its hidden features. -/
theorem transform2_stage (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) :
    val_main_v49 (F := Ideal) x0 x1 x2 x3 x4 = Cert.KernelIdeal.Transform2.product (val_main_v48 (F := Ideal) x0 x1 x2 x3) x4 := rfl

/-- The reference's result — the second aggregate plus bias — is the second bias stage's function of the aggregate and
    of the bias as one row. -/
theorem shift2_stage (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F))
    (x4 : (⟨S128x64, .f32⟩ : BufTy).Contents (Elt F)) (x5 : (⟨S64, .f32⟩ : BufTy).Contents (Elt F))
    (h : Cert.KernelIdeal.S64.ShapeCasts Cert.KernelIdeal.S1x64) :
    val_main_v92 (F := F) x0 x1 x2 x3 x4 x5
      = Cert.KernelIdeal.Shift2.shifted (val_main_v89 (F := F) x0 x1 x2 x3 x4) (shapeCast Cert.KernelIdeal.S1x64 x5 h) := by
  funext i
  rw [val_main_v92_apply, val_main_v91_apply, val_main_v90_apply]
  have hb : shapeCast Cert.KernelIdeal.S1x64 x5 h (Cert.KernelIdeal.Shift2.biasAt (i 1)) = x5 (idx_main_v90 (idx_main_v91 i)) := by
    refine (shapeCast_addUnit_apply ![64] x5 h (Cert.KernelIdeal.Shift2.biasAt (i 1))).trans (congrArg x5 (funext fun a => ?_))
    match a with
    | ⟨0, _⟩ => rfl
  unfold Cert.KernelIdeal.Shift2.shifted
  rw [hb]

end Cert.KernelIdeal.RefStages

end
-- ==== Proof.Boundary.lean ====
/-
  The result array at the end of the kernel's program, as the reference's last stage of the six arguments.

  @main is seven segments: a stretch of host operations, the first transform, a stretch, the first bias stage, the second
  transform, a stretch, the second bias stage. The buffer contents at each boundary are a fold from the launch memory. Walking
  it forward, each buffer a later segment reads holds the reference's stage value: the sources and destinations; `x @ W1`;
  the first layer's aggregate and the bias as a row; the hidden features; `h @ W2`; the second layer's aggregate and bias;
  the result. The arguments are never written, so every segment finds them as launched.
-/
import proofs.«161230_j24318104830702_1_alg».proof.Proof.Gen.KernelIdeal.Frame
import proofs.«161230_j24318104830702_1_alg».proof.Proof.Transform1
import proofs.«161230_j24318104830702_1_alg».proof.Proof.Transform2
import proofs.«161230_j24318104830702_1_alg».proof.Proof.Shift1
import proofs.«161230_j24318104830702_1_alg».proof.Proof.Shift2
import proofs.«161230_j24318104830702_1_alg».proof.Proof.Stretch
import proofs.«161230_j24318104830702_1_alg».proof.Proof.RefStages

set_option maxRecDepth 16384

noncomputable section

open Idealize.ShloMosaic Idealize.ShloMosaic.TcCoe Idealize.SL.Sem

namespace Cert.KernelIdeal.Boundary

open Cert.KernelIdeal Cert.KernelIdeal.Gen

variable (m : (ℓ : Loc nD τ sig) → Buf (Elt Ideal) ℓ) (ρ : Dev nD → PrngReg)

/-! ## The arguments as every segment finds them -/

theorem arg0_at1 (c : Dev nD) : W1 m ρ c (Proc.devRef .tc main_arg0) = m ((c : Thread nD τ).loc main_arg0) := Stretch.kept0_arg0 (W0 m ρ c)
theorem arg2_at1 (c : Dev nD) : W1 m ρ c (Proc.devRef .tc main_arg2) = m ((c : Thread nD τ).loc main_arg2) := Stretch.kept0_arg2 (W0 m ρ c)
theorem arg3_at2 (c : Dev nD) : W2 m ρ c (Proc.devRef .tc main_arg3) = m ((c : Thread nD τ).loc main_arg3) :=
  (W2_of_ne m ρ c main_arg3 (by decide)).trans (Stretch.kept0_arg3 (W0 m ρ c))
theorem arg4_at4 (c : Dev nD) : W4 m ρ c (Proc.devRef .tc main_arg4) = m ((c : Thread nD τ).loc main_arg4) :=
  (W4_of_ne m ρ c main_arg4 (by decide)).trans ((Stretch.kept1_arg4 (W2 m ρ c)).trans
    ((W2_of_ne m ρ c main_arg4 (by decide)).trans (Stretch.kept0_arg4 (W0 m ρ c))))
theorem arg5_at5 (c : Dev nD) : W5 m ρ c (Proc.devRef .tc main_arg5) = m ((c : Thread nD τ).loc main_arg5) :=
  (W5_of_ne m ρ c main_arg5 (by decide)).trans ((W4_of_ne m ρ c main_arg5 (by decide)).trans ((Stretch.kept1_arg5 (W2 m ρ c)).trans
    ((W2_of_ne m ρ c main_arg5 (by decide)).trans (Stretch.kept0_arg5 (W0 m ρ c)))))

/-! ## Sources and destinations, at the two stretches that read them -/

theorem src_at2 (c : Dev nD) : W2 m ρ c (Proc.devRef .tc main_v1) = Cert.ReferenceIdeal.Read.val_main_v1 (F := Ideal) (m ((c : Thread nD τ).loc main_arg1)) :=
  (W2_of_ne m ρ c main_v1 (by decide)).trans (Stretch.sources (W0 m ρ c))
theorem dst_at2 (c : Dev nD) : W2 m ρ c (Proc.devRef .tc main_v3) = Cert.ReferenceIdeal.Read.val_main_v3 (F := Ideal) (m ((c : Thread nD τ).loc main_arg1)) :=
  (W2_of_ne m ρ c main_v3 (by decide)).trans (Stretch.destinations (W0 m ρ c))
theorem src_at5 (c : Dev nD) : W5 m ρ c (Proc.devRef .tc main_v1) = Cert.ReferenceIdeal.Read.val_main_v1 (F := Ideal) (m ((c : Thread nD τ).loc main_arg1)) :=
  (W5_of_ne m ρ c main_v1 (by decide)).trans ((W4_of_ne m ρ c main_v1 (by decide)).trans ((Stretch.kept1_v1 (W2 m ρ c)).trans (src_at2 m ρ c)))
theorem dst_at5 (c : Dev nD) : W5 m ρ c (Proc.devRef .tc main_v3) = Cert.ReferenceIdeal.Read.val_main_v3 (F := Ideal) (m ((c : Thread nD τ).loc main_arg1)) :=
  (W5_of_ne m ρ c main_v3 (by decide)).trans ((W4_of_ne m ρ c main_v3 (by decide)).trans ((Stretch.kept1_v3 (W2 m ρ c)).trans (dst_at2 m ρ c)))

/-! ## The first layer -/

/-- After the first call: `x @ W1`. -/
theorem transformed1 (c : Dev nD) : W2 m ρ c (Proc.devRef .tc main_v4)
    = Cert.ReferenceIdeal.Read.val_main_v4 (F := Ideal) (m ((c : Thread nD τ).loc main_arg0)) (m ((c : Thread nD τ).loc main_arg2)) := by
  refine (W2_arr m ρ c 2).trans ((Transform1.final (V1 m ρ) c).trans ?_)
  show Transform1.product (W1 m ρ c (Proc.devRef .tc main_arg0)) (W1 m ρ c (Proc.devRef .tc main_arg2)) = _
  rw [arg0_at1, arg2_at1]
  rfl

/-- After the stretch that follows: the first layer's aggregate. -/
theorem aggregated1 (c : Dev nD) : W3 m ρ c (Proc.devRef .tc main_v44)
    = Cert.ReferenceIdeal.Read.val_main_v44 (F := Ideal) (m ((c : Thread nD τ).loc main_arg0)) (m ((c : Thread nD τ).loc main_arg1)) (m ((c : Thread nD τ).loc main_arg2)) :=
  Stretch.aggregate1 (W2 m ρ c) _ _ _ (transformed1 m ρ c) (src_at2 m ρ c) (dst_at2 m ρ c)

/-- … and the first bias as one row. -/
theorem bias1 (c : Dev nD) : W3 m ρ c (Proc.devRef .tc main_v45) = shapeCast S1x128 (m ((c : Thread nD τ).loc main_arg3)) shapeCasts_S128_S1x128 := by
  refine (Stretch.bias1_row (W2 m ρ c)).trans ?_
  rw [arg3_at2]

/-- After the second call: the hidden features. -/
theorem hidden (c : Dev nD) : W4 m ρ c (Proc.devRef .tc main_v46)
    = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) := by
  refine (W4_arr m ρ c 2).trans ((Shift1.final (V3 m ρ) c).trans ?_)
  show Shift1.shifted (W3 m ρ c (Proc.devRef .tc main_v44)) (W3 m ρ c (Proc.devRef .tc main_v45)) = _
  rw [aggregated1, bias1]
  exact (RefStages.shift1_stage _ _ _ _ _).symm

/-! ## The second layer -/

/-- After the third call: `h @ W2`. -/
theorem transformed2 (c : Dev nD) : W5 m ρ c (Proc.devRef .tc main_v47)
    = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ((Transform2.final (V4 m ρ) c).trans ?_)
  show Transform2.product (W4 m ρ c (Proc.devRef .tc main_v46)) (W4 m ρ c (Proc.devRef .tc main_arg4)) = _
  rw [hidden, arg4_at4]
  rfl

/-- After the stretch that follows: the second layer's aggregate. -/
theorem aggregated2 (c : Dev nD) : W6 m ρ c (Proc.devRef .tc main_v87)
    = Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  Stretch.aggregate2 (W5 m ρ c) _ _ _ _ _ (transformed2 m ρ c) (src_at5 m ρ c) (dst_at5 m ρ c)

/-- … and the second bias as one row. -/
theorem bias2 (c : Dev nD) : W6 m ρ c (Proc.devRef .tc main_v88) = shapeCast S1x64 (m ((c : Thread nD τ).loc main_arg5)) shapeCasts_S64_S1x64 := by
  refine (Stretch.bias2_row (W5 m ρ c)).trans ?_
  rw [arg5_at5]

/-- THE RESULT ARRAY at the last boundary is the reference's last stage of the six arguments as launched. -/
theorem result (c : Dev nD) : W7 m ρ c (Proc.devRef .tc main_v89)
    = Cert.ReferenceIdeal.Read.val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ((Shift2.final (V6 m ρ) c).trans ?_)
  show Shift2.shifted (W6 m ρ c (Proc.devRef .tc main_v87)) (W6 m ρ c (Proc.devRef .tc main_v88)) = _
  rw [aggregated2, bias2]
  exact (RefStages.shift2_stage _ _ _ _ _ _ _).symm

end Cert.KernelIdeal.Boundary

end
-- ==== Proof.lean ====
/-
  A two-layer graph convolution, `out = Â (relu (Â (x W1) + b1) W2) + b2` with `Â` the degree-normalised adjacency with
  self-loops built from `edge_index`, computed two ways.

  The kernel's program runs the two feature transforms (`x @ W1`, `h @ W2`) and the two bias stages (`+ b1` then
  `max (·, 0)`; `+ b2`) as tiled kernel calls over 20 row blocks, and the normalised aggregation between them as plain
  host operations. The reference runs everything as host operations. The aggregation is the same sequence of
  operations on both sides, so it is carried as it stands: whatever the edge indices are, equal inputs give equal
  outputs. What is proved is that each kernel call leaves in its result array exactly the reference's stage there:

  * a transform's block at grid point `t` is rows `5000 t …` of the product, whose entry is `∑ k, x (row, k) * W (k, col)`
    — the rounding of both factors to bf16 is the identity over the extended reals and the accumulator starts at
    zero — which is the host's `dot_general` at that entry; the 20 blocks tile the array;
  * a bias stage's block at point `t` is rows `5000 t …` of `a + b (0, col)` (clamped below at zero in the first
    layer), which is the host's broadcast, add and maximum at that entry; the blocks tile the array.

  No law of arithmetic is used beyond reading the same sums and the same pointwise operations on both sides, so the
  finiteness of the inputs is never opened. The three programs terminate without a fault and leave their arguments
  unchanged (the kernel programs by the generated frame over their seven segments, the reference by its generated run);
  the idealisation rewrote no operation.
-/
import proofs.«161230_j24318104830702_1_alg».proof.Defs
import proofs.«161230_j24318104830702_1_alg».proof.Proof.Gen.Kernel
import proofs.«161230_j24318104830702_1_alg».proof.Proof.Gen.Kernel.Skeleton
import proofs.«161230_j24318104830702_1_alg».proof.Proof.Gen.Kernel.Launch
import proofs.«161230_j24318104830702_1_alg».proof.Proof.Gen.Kernel.Points
import proofs.«161230_j24318104830702_1_alg».proof.Proof.Gen.Kernel.Frame
import proofs.«161230_j24318104830702_1_alg».proof.Proof.Gen.KernelIdeal
import proofs.«161230_j24318104830702_1_alg».proof.Proof.Gen.KernelIdeal.Skeleton
import proofs.«161230_j24318104830702_1_alg».proof.Proof.Gen.KernelIdeal.Launch
import proofs.«161230_j24318104830702_1_alg».proof.Proof.Gen.KernelIdeal.Points
import proofs.«161230_j24318104830702_1_alg».proof.Proof.Gen.KernelIdeal.Frame
import proofs.«161230_j24318104830702_1_alg».proof.Proof.Gen.ReferenceIdeal
import proofs.«161230_j24318104830702_1_alg».proof.Proof.Gen.Pre_finite_inputs
import proofs.«161230_j24318104830702_1_alg».proof.Proof.Gen.ReferenceIdeal.Run
import proofs.«161230_j24318104830702_1_alg».proof.Proof.Gen.ReferenceIdeal.Read
import proofs.«161230_j24318104830702_1_alg».proof.Proof.ResultRun
import proofs.«161230_j24318104830702_1_alg».proof.Proof.Boundary
import Idealize.ShloMosaic.Adequacy
import Idealize.ShloMosaic.Init

noncomputable section

namespace Cert.Proof

open Idealize.ShloMosaic Idealize.ShloMosaic.TcCoe Idealize.SL.Sem

/-- The kernel's program over the extended reals: it runs, its result array ends at the reference's last stage of
    the six arguments as launched, and the arguments end unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v89)
        = Cert.ReferenceIdeal.Read.val_main_v92 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono (fun _ h c => ⟨(h c).1.trans (Cert.KernelIdeal.Boundary.result m ρ c), (h c).2⟩)
    (Cert.KernelIdeal.ResultRun.run (F := Ideal) m ρ)

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealisation rewrote nothing: there is nothing to restate. -/
theorem preserves : Cert.preserves_Kernel_KernelIdeal := trivial

/-- Both programs end with the reference's last stage of the arguments in their result arrays; the arguments agree. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.ReferenceIdeal.Read.val_main_v92_eq, e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
